-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2704x5 : Shape := ⟨3, ![2048, 2704, 5]⟩
abbrev S_ : Shape := ⟨0, ![]⟩

class Facts : Prop where
  bcast_S_S2048x2704x5 : S_.BroadcastsInDim S2048x2704x5 (![] : Fin 0 → Fin S2048x2704x5.rank)
  reducesTo_S2048x2704x5_S_d0_1_2 : S2048x2704x5.ReducesTo [0, 1, 2] S_
  h_S_ : 0 < S_.numel

variable [Facts]

def fn {F : FTy → Type} [FloatOps F] (main_arg0 : FVec F S2048x2704x5 .f32) (main_arg1 : FVec F S2048x2704x5 .f32) : IVec S_ 1 :=
  let main_v0 : FVec F S2048x2704x5 .f32 := Host.absf main_arg0
  let main_cst : FVec F S_ .f32 := constant S_ .f32 0x7F800000#32
  let main_v1 : FVec F S2048x2704x5 .f32 := broadcastInDim S2048x2704x5 ![] bcast_S_S2048x2704x5 main_cst
  let main_v2 : IVec S2048x2704x5 1 := cmpf .olt main_v0 main_v1
  let main_c : IVec S_ 1 := constantI S_ 1 1#1
  let main_v3 : IVec S_ 1 := (fun x v => Host.reduce IntOp.andi x v reducesTo_S2048x2704x5_S_d0_1_2 h_S_) main_v2 main_c
  let main_v4 : FVec F S2048x2704x5 .f32 := Host.absf main_arg1
  let main_cst_0 : FVec F S_ .f32 := constant S_ .f32 0x7F800000#32
  let main_v5 : FVec F S2048x2704x5 .f32 := broadcastInDim S2048x2704x5 ![] bcast_S_S2048x2704x5 main_cst_0
  let main_v6 : IVec S2048x2704x5 1 := cmpf .olt main_v4 main_v5
  let main_c_1 : IVec S_ 1 := constantI S_ 1 1#1
  let main_v7 : IVec S_ 1 := (fun x v => Host.reduce IntOp.andi x v reducesTo_S2048x2704x5_S_d0_1_2 h_S_) main_v6 main_c_1
  let main_v8 : IVec S_ 1 := andi main_v3 main_v7
  main_v8
-- ==== Kernel.lean ====
abbrev S2048x2704x5 : Shape := ⟨3, ![2048, 2704, 5]⟩
abbrev S2x1x4 : Shape := ⟨3, ![2, 1, 4]⟩
abbrev S4x2704x5 : Shape := ⟨3, ![4, 2704, 5]⟩
abbrev S1x1x4 : Shape := ⟨3, ![1, 1, 4]⟩
abbrev S4x2704x1 : Shape := ⟨3, ![4, 2704, 1]⟩
abbrev S4x2704 : Shape := ⟨2, ![4, 2704]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1x4 : Shape := ⟨2, ![1, 4]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S2x1x4, .f32⟩
  | .hbm, ⟨3, _⟩ => ⟨S_, .f32⟩
  | .hbm, ⟨4, _⟩ => ⟨S1x4, .f32⟩
  | .hbm, ⟨5, _⟩ => ⟨S4, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S4x2704x5, .f32⟩
  | .local _ .vmem, ⟨1, _⟩ => ⟨S4x2704x5, .f32⟩
  | .local _ .vmem, ⟨2, _⟩ => ⟨S4x2704x5, .f32⟩
  | .local _ .vmem, ⟨3, _⟩ => ⟨S4x2704x5, .f32⟩
  | .local _ .vmem, ⟨4, _⟩ => ⟨S1x1x4, .f32⟩
  | .local _ .vmem, ⟨5, _⟩ => ⟨S1x1x4, .f32⟩
  | _, _ => ⟨S2048x2704x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2704x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2704x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x4_S1x1x4_0_0_0 : ∀ a, (![0, 0, 0] : Fin 3 → Nat) a + S1x1x4.size a ≤ S1x1x4.size a
  h_S1x1x4 : 0 < S1x1x4.numel
  inb_S4x2704x5_S4x2704x5_0_0_0 : ∀ a, (![0, 0, 0] : Fin 3 → Nat) a + S4x2704x5.size a ≤ S4x2704x5.size a
  h_S4x2704x5 : 0 < S4x2704x5.numel
  slices_S4x2704x5_o0_0_0_S4x2704x1 : S4x2704x5.Slices ![0, 0, 0] S4x2704x1
  shapeCasts_S4x2704x1_S4x2704 : S4x2704x1.ShapeCasts S4x2704
  natLt_1_32 : 1 < 32
  slices_S4x2704x5_o0_0_1_S4x2704x1 : S4x2704x5.Slices ![0, 0, 1] S4x2704x1
  slices_S4x2704x5_o0_0_2_S4x2704x1 : S4x2704x5.Slices ![0, 0, 2] S4x2704x1
  slices_S4x2704x5_o0_0_3_S4x2704x1 : S4x2704x5.Slices ![0, 0, 3] S4x2704x1
  slices_S4x2704x5_o0_0_4_S4x2704x1 : S4x2704x5.Slices ![0, 0, 4] S4x2704x1
  reduces_S4x2704_S4 : S4x2704.Reduces [1] S4
  shapeCasts_S4_S4x1 : S4.ShapeCasts S4x1
  reduces_S4x1_S1 : S4x1.Reduces [0] S1
  shapeCasts_S1_S1x1 : S1.ShapeCasts S1x1
  concatenates_S1x1_S1x1_S1x1_S1x1_S1x4_d1 : Shape.Concatenates [S1x1, S1x1, S1x1, S1x1] S1x4 1
  shapeCasts_S1x4_S1x1x4 : S1x4.ShapeCasts S1x1x4
  shapeCasts_S1x1x4_S1x1x4 : S1x1x4.ShapeCasts S1x1x4
  reducesTo_S2x1x4_S1x4_d0 : S2x1x4.ReducesTo [0] S1x4
  h_S_ : 0 < S_.numel
  shapeCasts_S1x4_S4 : S1x4.ShapeCasts S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2704x5.size a ≤ S2048x2704x5.size a
  hwx0_0 : ∀ i : grid0.Coords, EltTy.bits .f32 = 32 ∨ (Rect.block (s := S2048x2704x5) S4x2704x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2704x5.size a ≤ S2048x2704x5.size a
  hwx0_1 : ∀ i : grid0.Coords, EltTy.bits .f32 = 32 ∨ (Rect.block (s := S2048x2704x5) S4x2704x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S2x1x4.size a
  hwx0_2 : ∀ i : grid0.Coords, EltTy.bits .f32 = 32 ∨ (Rect.block (s := S2x1x4) S1x1x4.size (cc0_transform_2 i) (hinb0_2 i)).WholeWords (EltTy.packing .f32)

variable [Facts₀]

abbrev win0_0 : Pipeline.Window sig grid0 :=
  Pipeline.Window.ofSpec (Memref.whole main_arg0) S4x2704x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2704x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2704x5 : Shape := ⟨3, ![2048, 2704, 5]⟩
abbrev S2048x2704x1 : Shape := ⟨3, ![2048, 2704, 1]⟩
abbrev S2048x2704 : Shape := ⟨2, ![2048, 2704]⟩
abbrev S_ : Shape := ⟨0, ![]⟩
abbrev S2048x2704x4 : Shape := ⟨3, ![2048, 2704, 4]⟩

abbrev nBuf : Space → Nat
  | .hbm => 82
  | .vmem => 0
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S2048x2704x1, .f32⟩
  | .hbm, ⟨3, _⟩ => ⟨S2048x2704, .f32⟩
  | .hbm, ⟨4, _⟩ => ⟨S_, .f32⟩
  | .hbm, ⟨5, _⟩ => ⟨S2048x2704, .f32⟩
  | .hbm, ⟨6, _⟩ => ⟨S2048x2704, .i1⟩
  | .hbm, ⟨7, _⟩ => ⟨S2048x2704, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x2704x4, .f32⟩
  | .hbm, ⟨18, _⟩ => ⟨S2048x2704x4, .f32⟩
  | .hbm, ⟨19, _⟩ => ⟨S2048x2704x4, .f32⟩
  | .hbm, ⟨20, _⟩ => ⟨S2048x2704x4, .f32⟩
  | .hbm, ⟨21, _⟩ => ⟨S_, .f32⟩
  | .hbm, ⟨22, _⟩ => ⟨S2048x2704, .f32⟩
  | .hbm, ⟨23, _⟩ => ⟨S_, .f32⟩
  | .hbm, ⟨24, _⟩ => ⟨S_, .f32⟩
  | .hbm, ⟨25, _⟩ => ⟨S2048x2704, .f32⟩
  | .hbm, ⟨26, _⟩ => ⟨S2048x2704, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048x2704x1, .f32⟩
  | .hbm, ⟨34, _⟩ => ⟨S2048x2704, .f32⟩
  | .hbm, ⟨35, _⟩ => ⟨S2048x2704x1, .f32⟩
  | .hbm, ⟨36, _⟩ => ⟨S2048x2704, .f32⟩
  | .hbm, ⟨37, _⟩ => ⟨S2048x2704, .f32⟩
  | .hbm, ⟨38, _⟩ => ⟨S_, .f32⟩
  | .hbm, ⟨39, _⟩ => ⟨S2048x2704, .f32⟩
  | .hbm, ⟨40, _⟩ => ⟨S2048x2704, .f32⟩
  | .hbm, ⟨41, _⟩ => ⟨S2048x2704, .f32⟩
  | .hbm, ⟨42, _⟩ => ⟨S_, .f32⟩
  | .hbm, ⟨43, _⟩ => ⟨S2048x2704, .f32⟩
  | .hbm, ⟨44, _⟩ => ⟨S2048x2704, .f32⟩
  | .hbm, ⟨45, _⟩ => ⟨S_, .f32⟩
  | .hbm, ⟨46, _⟩ => ⟨S2048x2704, .f32⟩
  | .hbm, ⟨47, _⟩ => ⟨S2048x2704, .f32⟩
  | .hbm, ⟨48, _⟩ => ⟨S2048x2704, .f32⟩
  | .hbm, ⟨49, _⟩ => ⟨S_, .f32⟩
  | .hbm, ⟨50, _⟩ => ⟨S2048x2704, .f32⟩
  | .hbm, ⟨51, _⟩ => ⟨S2048x2704, .f32⟩
  | .hbm, ⟨52, _⟩ => ⟨S2048x2704, .f32⟩
  | .hbm, ⟨53, _⟩ => ⟨S2048x2704, .f32⟩
  | .hbm, ⟨54, _⟩ => ⟨S2048x2704, .f32⟩
  | .hbm, ⟨55, _⟩ => ⟨S_, .f32⟩
  | .hbm, ⟨56, _⟩ => ⟨S_, .f32⟩
  | .hbm, ⟨57, _⟩ => ⟨S2048x2704, .f32⟩
  | .hbm, ⟨58, _⟩ => ⟨S2048x2704, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048x2704, .f32⟩
  | .hbm, ⟨65, _⟩ => ⟨S2048x2704, .f32⟩
  | .hbm, ⟨66, _⟩ => ⟨S2048x2704, .f32⟩
  | .hbm, ⟨67, _⟩ => ⟨S_, .f32⟩
  | .hbm, ⟨68, _⟩ => ⟨S2048x2704, .f32⟩
  | .hbm, ⟨69, _⟩ => ⟨S2048x2704, .f32⟩
  | .hbm, ⟨70, _⟩ => ⟨S2048x2704, .f32⟩
  | .hbm, ⟨71, _⟩ => ⟨S_, .f32⟩
  | .hbm, ⟨72, _⟩ => ⟨S_, .f32⟩
  | .hbm, ⟨73, _⟩ => ⟨S2048x2704, .f32⟩
  | .hbm, ⟨74, _⟩ => ⟨S2048x2704, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S2048x2704x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_call2_v0 : Ref sig .tc := ⟨.hbm, 72, rfl⟩
abbrev main_call2_v1 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_cst_17 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  slices_S2048x2704x5_S2048x2704x1_0_0_0 : S2048x2704x5.Slices ![0, 0, 0] S2048x2704x1
  shapeCasts_S2048x2704x1_S2048x2704 : S2048x2704x1.ShapeCasts S2048x2704
  bcast_S_S2048x2704 : S_.BroadcastsInDim S2048x2704 (![] : Fin 0 → Fin S2048x2704.rank)
  natLt_1_32 : 1 < 32
  reducesTo_S2048x2704_S_d0_1 : S2048x2704.ReducesTo [0, 1] S_
  h_S_ : 0 < S_.numel
  slices_S2048x2704x5_S2048x2704x4_0_0_1 : S2048x2704x5.Slices ![0, 0, 1] S2048x2704x4
  reducesTo_S2048x2704x4_S2048x2704_d2 : S2048x2704x4.ReducesTo [2] S2048x2704

variable [Facts₀]

class Facts : Prop extends Facts₀ where

variable [Facts]
-- ==== Proof.Spec.lean ====
/-
  The masked detection loss, cell by cell.

  A cell is one (image, anchor) pair: five predictions a 0 … a 4 and five labels b 0 … b 4, entry 0 the confidence and
  entries 1 … 4 the box. A cell is a FACE when its label confidence exceeds one half. Four numbers are added up
  over all cells:
    the face count                         1 on a face, 0 elsewhere;
    the box error on faces                 (a1-b1)² + (a2-b2)² + (a3-b3)² + (a4-b4)²;
    the confidence cross-entropy on faces  -(b0 · ℓ(a0) + (1 - b0) · ℓ(1 - a0)),  ℓ x = max (log x) (-100);
    the background cross-entropy off faces -ℓ(1 - a0).
  The loss is one fixed expression of the four totals. Everything is read on the extended reals.
-/
import Idealize.ShloMosaic.PureOps.Ideal
import Idealize.ShloMosaic.PureOps.Ideal.Laws
import Idealize.ShloMosaic.Lib.ValueIdx

noncomputable section

open scoped BigOperators

namespace MaskedLoss

open Idealize.ShloMosaic Idealize.ShloMosaic.ValueIdx

/-- The float words the two programs share. -/
abbrev zero : EReal := Ideal.ofBits .f32 0x00000000#32
abbrev half : EReal := Ideal.ofBits .f32 0x3F000000#32
abbrev one : EReal := Ideal.ofBits .f32 0x3F800000#32
abbrev floor : EReal := Ideal.ofBits .f32 0xC2C80000#32

/-- A cell is a face when its label confidence exceeds one half. -/
def face (b : Fin 5 → EReal) : BitVec 1 := FloatOps.cmpf (F := Ideal) (φ := .f32) .ogt (b 0) half

/-- The logarithm, floored at -100. -/
def flog (x : EReal) : EReal := max (Ideal.log x) floor

/-- A cell's squared box error, the four squares added from the left onto zero. -/
def boxErr (a b : Fin 5 → EReal) : EReal :=
  zero + (a 1 - b 1) * (a 1 - b 1) + (a 2 - b 2) * (a 2 - b 2) + (a 3 - b 3) * (a 3 - b 3) + (a 4 - b 4) * (a 4 - b 4)

/-- A cell's confidence cross-entropy. -/
def confErr (a b : Fin 5 → EReal) : EReal := zero - (b 0 * flog (a 0) + (one - b 0) * flog (one - a 0))

/-- A cell's background cross-entropy. -/
def bgErr (a : Fin 5 → EReal) : EReal := zero - flog (one - a 0)

/-- The four addends of a cell, by number: the face indicator, and the three errors where they count. -/
def addend (q : Fin 4) (a b : Fin 5 → EReal) : EReal :=
  match q with
  | 0 => FloatOps.sitofp (F := Ideal) .f32 ((face b).setWidth 32)
  | 1 => Scalar.select (face b) (boxErr a b) zero
  | 2 => Scalar.select (face b) (confErr a b) zero
  | 3 => Scalar.select (face b) zero (bgErr a)

/-- Cell (p, n) of a [P, N, 5] array: its five entries. -/
abbrev cell {P N : Nat} (X : (⟨3, ![P, N, 5]⟩ : Shape).Idx → EReal) (p : Fin P) (n : Fin N) : Fin 5 → EReal :=
  fun k => X (ix3 p n k)

/-- Addend q added over every cell of a [P, N, 5] pair of arrays. -/
def total {P N : Nat} (q : Fin 4) (X Y : (⟨3, ![P, N, 5]⟩ : Shape).Idx → EReal) : EReal :=
  ∑ p : Fin P, ∑ n : Fin N, addend q (cell X p n) (cell Y p n)

/-- The loss as both programs compute it from the four totals (face count, box, confidence, background), each a
    rank-0 array: the operations after the sums, in the programs' own order. The cell count 5537792 is the word
    0x4AA90000. -/
def lossOf (F : FTy → Type) [FloatOps F] (cnt box conf bg : FVec F ⟨0, ![]⟩ .f32) : FVec F ⟨0, ![]⟩ .f32 :=
  let bgNum := subf (constant (F := F) ⟨0, ![]⟩ .f32 0x4AA90000#32) cnt
  let scale := addf (constant (F := F) ⟨0, ![]⟩ .f32 0x3F800000#32) (Host.divf (constant (F := F) ⟨0, ![]⟩ .f32 0x3F800000#32) cnt)
  let dBox := Host.divf (mulf scale box) (mulf cnt (constant (F := F) ⟨0, ![]⟩ .f32 0x40800000#32))
  let dConf := Host.divf (mulf scale conf) cnt
  let dBg := Host.divf (mulf (constant (F := F) ⟨0, ![]⟩ .f32 0x3F800000#32) bg) bgNum
  addf (addf dBox dConf) dBg

end MaskedLoss

end
-- ==== Proof.KernelPieces.lean ====
/-
  What one grid point leaves in the accumulator block.

  The kernel keeps a block of four running sums per core. At a point it loads a block of four images' predictions
  and labels, forms the four sums of that block, and stores the block it loaded from the accumulator plus those sums.
  At the first point of a core's run it first stores zeros, so what it reads back is the zero block; at every other
  point it reads what the point before left. Either way the block it leaves is ONE function, `step`, of the two input
  blocks and of the accumulator contents it read.
-/
import proofs.«156289_j76699525971982_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Cert.KernelIdeal Cert.KernelIdeal.Gen

variable {F : FTy → Type} [FloatOps F]

/-- A rank-3 block addressed from its origin. -/
theorem hz3 : (![0, 0, 0] : Fin 3 → Nat) = fun _ => 0 := funext fun a => by fin_cases a <;> rfl

/-- The accumulator block after a point: the block read, plus the four sums of the point's input blocks. -/
def step (x0 x1 : Vec F S4x2704x5 .f32) (acc : Vec F S1x1x4 .f32) : FVec F S1x1x4 .f32 :=
  k0_pay8 (k0_pay2 x0) (k0_pay3 x1) (k0_pay4 x1) (k0_pay5 x1) (k0_pay6 x0 x1) (k0_pay7 x0)
    (Scalar.ofBits .f32 0x3F800000#32) acc

/-- At the first point of a core's run the body stores zeros, reads them back, and stores their sum with the point's
    four sums: the later store covers the whole block, and the read-back of the single earlier store is its payload. -/
theorem out_reset (c : Dev nD) (i : grid0.Coords) (arg2 : Memref sig .tc .vmem S4x2704x5 .f32) (harg2 : arg2.IsWhole)
    (arg3 : Memref sig .tc .vmem S4x2704x5 .f32) (harg3 : arg3.IsWhole) (arg4 : Memref sig .tc .vmem S1x1x4 .f32)
    (harg4 : arg4.IsWhole) (hc0 : cond0_0 i) (x0 x1 : Vec F S4x2704x5 .f32) :
    out0_A_2 c i arg2 harg2 arg3 harg3 arg4 harg4 hc0 x0 x1 = step x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x1x4) hz3]
  simp only [View.readAt_eq_ld, harg2.read_unread, harg3.read_unread, View.ld_unit_zero (S := S4x2704x5) hz3,
    View.ld_unit_zero (S := S1x1x4) hz3, View.readCov_unit_zero (S := S1x1x4) _ hz3, step]

/-- At every other point the body reads what the point before left and stores its sum with the point's four sums. -/
theorem out_carry (c : Dev nD) (i : grid0.Coords) (arg2 : Memref sig .tc .vmem S4x2704x5 .f32) (harg2 : arg2.IsWhole)
    (arg3 : Memref sig .tc .vmem S4x2704x5 .f32) (harg3 : arg3.IsWhole) (arg4 : Memref sig .tc .vmem S1x1x4 .f32)
    (harg4 : arg4.IsWhole) (hc0 : ¬cond0_0 i) (x0 x1 : Vec F S4x2704x5 .f32) (xo2 : Vec F S1x1x4 .f32) :
    out0_B_2 c i arg2 harg2 arg3 harg3 arg4 harg4 hc0 x0 x1 xo2 = step x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S1x1x4) hz3]
  simp only [View.readAt_eq_ld, harg2.read_unread, harg3.read_unread, harg4.read_unread,
    View.ld_unit_zero (S := S4x2704x5) hz3, View.ld_unit_zero (S := S1x1x4) hz3, step]

end Cert.KernelIdeal.Pieces

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KernelCell.lean ====
/-
  One grid point's contribution, read at an index.

  A point's block holds four images of 2704 anchors. The body cuts the five entries of every cell out of the
  block, forms the cell's four addends pointwise, adds each addend along the anchors and then along the four images,
  lays the four sums side by side and adds them to the accumulator block. Read at sum number q this is: the
  accumulator's entry plus addend q added over the block's cells.
-/
import proofs.«156289_j76699525971982_1_alg».proof.Proof.KernelPieces
import proofs.«156289_j76699525971982_1_alg».proof.Proof.Spec
import proofs.«156289_j76699525971982_1_alg».proof.Proof.LibRowLayers
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.CellValue

open Idealize.ShloMosaic Idealize.ShloMosaic.ValueIdx
open Cert.KernelIdeal Cert.KernelIdeal.Gen

/-- Entry k of cell (r, n) of a block of images: the slice at offset o = k along the last axis, its unit axis dropped. -/
theorem chan_apply (o : Nat) (k : Fin 5) (hk : k.val = o) (x : S4x2704x5.Idx → EReal)
    (h : S4x2704x5.Slices ![0, 0, o] S4x2704x1) (hsc : S4x2704x1.ShapeCasts S4x2704) (r : Fin 4) (n : Fin 2704) :
    shapeCast S4x2704 (extractStridedSlice S4x2704x1 ![0, 0, o] x h) hsc (ix2 r n) = x (ix3 r n k) := by
  refine (shapeCast_apply _ hsc (ix2 r n) (ix3 r n (0 : Fin 1)) ?_).trans ?_
  · rw [Shape.rowMajor_val_three, Shape.rowMajor_val_two]
    show (r.val * 2704 + n.val) * 1 + 0 = r.val * 2704 + n.val
    omega
  · refine extractStridedSlice_apply _ x h _ (ix3 r n k) fun a => ?_
    match a with
    | ⟨0, _⟩ => show r.val = 0 + r.val; omega
    | ⟨1, _⟩ => show n.val = 0 + n.val; omega
    | ⟨2, _⟩ => show k.val = o + 0; omega

/-- Putting row r back into the single reduced index of a reduction along the rows of a column gives (r, 0). -/
theorem lift_rows (hred : S4x1.Reduces [0] S1) (r : Fin (S4x1.size 0)) :
    hred.lift (ix1 (0 : Fin 1)) r = ix2 (⟨r.val, r.isLt⟩ : Fin 4) (0 : Fin 1) := by
  funext a; apply Fin.ext
  fin_cases a <;> rfl

/-- The body's sum of a [4, 2704] vector, along the anchors first and then along the four images, kept as a [1, 1]
    array: the sum over the block's cells. -/
theorem blockSum_apply (v : FVec Ideal S4x2704 .f32) (h1 : S4x2704.Reduces [1] S4) (hf : FKind.Formats FTy.f32)
    (ha : (0x00000000#32 : BitVec FTy.f32.bits) = FKind.add.neutral .f32 hf) (hc1 : S4.ShapeCasts S4x1)
    (h2 : S4x1.Reduces [0] S1) (hc2 : S1.ShapeCasts S1x1) :
    shapeCast S1x1 (multiReduction .add [0] S1 (shapeCast S4x1 (multiReduction .add [1] S4 v 0x00000000#32 h1 hf ha) hc1)
        0x00000000#32 h2 hf ha) hc2 (ix2 (0 : Fin 1) (0 : Fin 1))
      = ∑ r : Fin 4, ∑ n : Fin 2704, v (ix2 r n) := by
  refine (shapeCast_a_1a_apply _ hc2 0 0).trans ?_
  refine (Ideal.multiReduction_add_single _ _ h2 hf ha (ix1 (0 : Fin 1))).trans ?_
  refine Finset.sum_congr rfl fun r _ => ?_
  rw [lift_rows]
  refine (RowLayers.column_apply hc1 _ _ _).trans ?_
  refine (Ideal.multiReduction_add_single _ _ h1 hf ha _).trans ?_
  refine Finset.sum_congr rfl fun n _ => ?_
  rw [RowLayers.lift_cols]
  rfl

/-- The four sums laid side by side and given a leading unit axis: entry (0, 0, q) is sum number q. -/
theorem cat4_apply (w0 w1 w2 w3 : S1x1.Idx → EReal)
    (hcat : Shape.Concatenates [S1x1, S1x1, S1x1, S1x1] S1x4 1) (hsc : S1x4.ShapeCasts S1x1x4) (q : Fin 4) :
    shapeCast S1x1x4 (concatenate S1x4 1 [⟨S1x1, w0⟩, ⟨S1x1, w1⟩, ⟨S1x1, w2⟩, ⟨S1x1, w3⟩] hcat) hsc (ix3 (0 : Fin 1) (0 : Fin 1) q)
      = (![w0, w1, w2, w3] q) (ix2 (0 : Fin 1) (0 : Fin 1)) := by
  refine (shapeCast_ab_1ab_apply _ hsc 0 0 q).trans ?_
  fin_cases q
  · exact concatenate_apply_piece (t := S1x4) (1 : Fin 2) ([⟨S1x1, w0⟩, ⟨S1x1, w1⟩, ⟨S1x1, w2⟩, ⟨S1x1, w3⟩] : List ((s : Shape) × (s.Idx → EReal))) hcat (ix2 (0 : Fin 1) (0 : Fin 4)) 0 (by simp) S1x1 w0 rfl rfl 0 rfl (ix2 0 0)
      (fun b hb => by fin_cases b <;> first | rfl | exact absurd rfl hb) rfl
  · exact concatenate_apply_piece (t := S1x4) (1 : Fin 2) ([⟨S1x1, w0⟩, ⟨S1x1, w1⟩, ⟨S1x1, w2⟩, ⟨S1x1, w3⟩] : List ((s : Shape) × (s.Idx → EReal))) hcat (ix2 (0 : Fin 1) (1 : Fin 4)) 1 (by simp) S1x1 w1 rfl rfl 1 rfl (ix2 0 0)
      (fun b hb => by fin_cases b <;> first | rfl | exact absurd rfl hb) rfl
  · exact concatenate_apply_piece (t := S1x4) (1 : Fin 2) ([⟨S1x1, w0⟩, ⟨S1x1, w1⟩, ⟨S1x1, w2⟩, ⟨S1x1, w3⟩] : List ((s : Shape) × (s.Idx → EReal))) hcat (ix2 (0 : Fin 1) (2 : Fin 4)) 2 (by simp) S1x1 w2 rfl rfl 2 rfl (ix2 0 0)
      (fun b hb => by fin_cases b <;> first | rfl | exact absurd rfl hb) rfl
  · exact concatenate_apply_piece (t := S1x4) (1 : Fin 2) ([⟨S1x1, w0⟩, ⟨S1x1, w1⟩, ⟨S1x1, w2⟩, ⟨S1x1, w3⟩] : List ((s : Shape) × (s.Idx → EReal))) hcat (ix2 (0 : Fin 1) (3 : Fin 4)) 3 (by simp) S1x1 w3 rfl rfl 3 rfl (ix2 0 0)
      (fun b hb => by fin_cases b <;> first | rfl | exact absurd rfl hb) rfl

open MaskedLoss Cert.KernelIdeal.Pieces

/-- One cell's four addends, from the body's intermediate vectors read at the cell: the face indicator already
    converted (v12), the face bit (v10), the confidences (v6 predicted, v8 label), the squared box error (v41), the
    floored logarithm of the predicted confidence (v44), and the constant one (c1). -/
def cellTerm (q : Fin 4) (v6 v8 : EReal) (v10 : BitVec 1) (v12 v41 v44 c1 : EReal) : EReal :=
  match q with
  | 0 => v12
  | 1 => Scalar.select v10 v41 zero
  | 2 => Scalar.select v10 (zero - (v8 * v44 + (one - v8) * max (Ideal.log (c1 - v6)) floor)) zero
  | 3 => Scalar.select v10 zero (zero - max (Ideal.log (c1 - v6)) floor)

/-- The block the body stores, at sum number q: the accumulator entry it read plus the block's sum of addend q. -/
theorem pay8_apply (v6 v8 : FVec Ideal S4x2704 .f32) (v10 : IVec S4x2704 1) (v12 v41 v44 : FVec Ideal S4x2704 .f32)
    (c1 : Ideal .f32) (acc : Vec Ideal S1x1x4 .f32) (q : Fin 4) :
    k0_pay8 v6 v8 v10 v12 v41 v44 c1 acc (ix3 (0 : Fin 1) (0 : Fin 1) q)
      = acc (ix3 (0 : Fin 1) (0 : Fin 1) q)
        + ∑ r : Fin 4, ∑ n : Fin 2704, cellTerm q (v6 (ix2 r n)) (v8 (ix2 r n)) (v10 (ix2 r n)) (v12 (ix2 r n))
            (v41 (ix2 r n)) (v44 (ix2 r n)) c1 := by
  unfold k0_pay8
  refine congrArg₂ (· + ·) (congrFun (shapeCast_self acc _) _) ?_
  refine (cat4_apply _ _ _ _ _ _ q).trans ?_
  fin_cases q
  · exact (blockSum_apply _ _ _ _ _ _ _).trans (Finset.sum_congr rfl fun r _ => Finset.sum_congr rfl fun n _ => rfl)
  · exact (blockSum_apply _ _ _ _ _ _ _).trans (Finset.sum_congr rfl fun r _ => Finset.sum_congr rfl fun n _ => rfl)
  · exact (blockSum_apply _ _ _ _ _ _ _).trans (Finset.sum_congr rfl fun r _ => Finset.sum_congr rfl fun n _ => rfl)
  · exact (blockSum_apply _ _ _ _ _ _ _).trans (Finset.sum_congr rfl fun r _ => Finset.sum_congr rfl fun n _ => rfl)

/-- The body's intermediate vectors, read at cell (r, n) of the input blocks. -/
theorem pay2_apply (x0 : Vec Ideal S4x2704x5 .f32) (r : Fin 4) (n : Fin 2704) :
    k0_pay2 x0 (ix2 r n) = x0 (ix3 r n (0 : Fin 5)) := by
  unfold k0_pay2; exact chan_apply 0 0 rfl x0 _ _ r n
theorem pay3_apply (x1 : Vec Ideal S4x2704x5 .f32) (r : Fin 4) (n : Fin 2704) :
    k0_pay3 x1 (ix2 r n) = x1 (ix3 r n (0 : Fin 5)) := by
  unfold k0_pay3; exact chan_apply 0 0 rfl x1 _ _ r n
theorem pay4_apply (x1 : Vec Ideal S4x2704x5 .f32) (r : Fin 4) (n : Fin 2704) :
    k0_pay4 x1 (ix2 r n) = face (cell x1 r n) := by
  unfold k0_pay4
  show FloatOps.cmpf (F := Ideal) (φ := .f32) .ogt (k0_pay3 x1 (ix2 r n)) _ = _
  rw [pay3_apply]; rfl
theorem pay5_apply (x1 : Vec Ideal S4x2704x5 .f32) (r : Fin 4) (n : Fin 2704) :
    k0_pay5 x1 (ix2 r n) = addend 0 (cell x1 r n) (cell x1 r n) := by
  unfold k0_pay5
  show FloatOps.sitofp (F := Ideal) .f32 ((k0_pay4 x1 (ix2 r n)).setWidth 32) = _
  rw [pay4_apply]; rfl
theorem pay6_apply (x0 x1 : Vec Ideal S4x2704x5 .f32) (r : Fin 4) (n : Fin 2704) :
    k0_pay6 x0 x1 (ix2 r n) = boxErr (cell x0 r n) (cell x1 r n) := by
  unfold k0_pay6 boxErr
  simp only [addf_apply, mulf_apply, subf_apply, broadcast_apply,
    chan_apply 1 1 rfl, chan_apply 2 2 rfl, chan_apply 3 3 rfl, chan_apply 4 4 rfl]
  rfl
theorem pay7_apply (x0 : Vec Ideal S4x2704x5 .f32) (r : Fin 4) (n : Fin 2704) :
    k0_pay7 x0 (ix2 r n) = flog (x0 (ix3 r n (0 : Fin 5))) := by
  unfold k0_pay7
  show max (Ideal.log (k0_pay2 x0 (ix2 r n))) _ = _
  rw [pay2_apply]; rfl

/-- ONE POINT, AT AN INDEX. After a point the accumulator block holds, at sum number q, what it held before plus
    addend q added over the sixteen-thousand-odd cells of the point's block of four images. -/
theorem step_apply (x0 x1 : Vec Ideal S4x2704x5 .f32) (acc : Vec Ideal S1x1x4 .f32) (q : Fin 4) :
    step x0 x1 acc (ix3 (0 : Fin 1) (0 : Fin 1) q)
      = acc (ix3 (0 : Fin 1) (0 : Fin 1) q) + ∑ r : Fin 4, ∑ n : Fin 2704, addend q (cell x0 r n) (cell x1 r n) := by
  unfold step
  refine (pay8_apply _ _ _ _ _ _ _ acc q).trans (congrArg _ ?_)
  refine Finset.sum_congr rfl fun r _ => Finset.sum_congr rfl fun n _ => ?_
  rw [pay2_apply, pay3_apply, pay4_apply, pay5_apply, pay6_apply, pay7_apply]
  fin_cases q <;> rfl

end Cert.KernelIdeal.CellValue

end
-- ==== Proof.Sums.lean ====
/-
  Regrouping a sum over images.

  The kernel visits the 2048 images in blocks of four: core p of two takes the 256 blocks 256 p … 256 p + 255 in
  order, and block t holds images 4 t … 4 t + 3. Adding a quantity R over (core, block, image in the block) is adding
  it over all images, in any commutative monoid: the addends are the same, only grouped.
-/
import proofs.«156289_j76699525971982_1_alg».proof.Proof.Spec

noncomputable section

open scoped BigOperators

namespace MaskedLoss

open Finset

/-- A sum over a rows, each of b consecutive terms, is the sum over the first a · b terms. -/
theorem sum_range_mul {M : Type} [AddCommMonoid M] (a b : ℕ) (f : ℕ → M) :
    ∑ i ∈ range a, ∑ j ∈ range b, f (i * b + j) = ∑ k ∈ range (a * b), f k := by
  induction a with
  | zero => simp
  | succ a ih => rw [Finset.sum_range_succ, ih, Nat.succ_mul, Finset.sum_range_add]

/-- Two cores, 256 blocks each, four images a block: all 2048 images, each once. -/
theorem sum_cores_blocks_images {M : Type} [AddCommMonoid M] (R : ℕ → M) :
    ∑ p ∈ range 2, ∑ s ∈ range 256, ∑ r ∈ range 4, R (4 * (256 * p + s) + r) = ∑ b ∈ range 2048, R b := by
  have hblock : ∀ p, ∑ s ∈ range 256, ∑ r ∈ range 4, R (4 * (256 * p + s) + r)
      = ∑ k ∈ range (256 * 4), R (1024 * p + k) := by
    intro p
    rw [← sum_range_mul 256 4 fun k => R (1024 * p + k)]
    refine Finset.sum_congr rfl fun s _ => Finset.sum_congr rfl fun r _ => ?_
    congr 1; ring
  simp only [hblock]
  rw [show (2048 : ℕ) = 2 * 1024 from rfl, ← sum_range_mul 2 1024 R]
  refine Finset.sum_congr rfl fun p _ => Finset.sum_congr rfl fun k _ => ?_
  congr 1; ring

end MaskedLoss

end
-- ==== Proof.KernelAccum.lean ====
/-
  The accumulator over a core's run, and the output array after the region.

  The grid is two cores by 256 blocks; point t = 256 p + s is block s of core p and reads images 4 t … 4 t + 3 of both
  arrays. The accumulator block is reset at s = 0 and written back after s = 255, so after point t it holds zero plus
  the sums of the points 256 p … t, and what core p writes back is zero plus the sums of all its 256 points: row p of
  the output array.
-/
import proofs.«156289_j76699525971982_1_alg».proof.Proof.Gen.KernelIdeal.Frame
import proofs.«156289_j76699525971982_1_alg».proof.Proof.Spec
import proofs.«156289_j76699525971982_1_alg».proof.Proof.KernelCell
import proofs.«156289_j76699525971982_1_alg».proof.Proof.Sums
import Idealize.ShloMosaic.Lib.Pipeline.Value
import Idealize.ShloMosaic.Lib.ValueIdx

set_option maxRecDepth 16384

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen MaskedLoss Cert.KernelIdeal.Pieces Cert.KernelIdeal.CellValue Finset

variable (m : (ℓ : Loc nD τ sig) → Buf (Elt Ideal) ℓ)

/-- The two input blocks of point t, and the two whole arrays, by their literal types. -/
abbrev xblk (c : Dev nD) (t : Fin cfg0.N) : S4x2704x5.Idx → EReal := iblk m c 0 t
abbrev yblk (c : Dev nD) (t : Fin cfg0.N) : S4x2704x5.Idx → EReal := iblk m c 1 t
abbrev xarr (c : Dev nD) : S2048x2704x5.Idx → EReal := V m c main_arg0
abbrev yarr (c : Dev nD) : S2048x2704x5.Idx → EReal := V m c main_arg1

/-- The printed index maps, decided over the grid: point t reads block t of both inputs (images 4 t … 4 t + 3, every
    anchor and entry), and writes block t / 256 of the output. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 256 ∧ win0_2.index t (1 : Fin 3) = 0 ∧ win0_2.index t (2 : Fin 3) = 0 :=
  (by decide +kernel : ∀ t : Fin grid0.N, _)

theorem t_lt (t : Fin cfg0.N) : t.val < 512 := lt_of_lt_of_eq t.isLt (show cfg0.N = 512 from N_0)

/-- Entry (r, n, k) of point t's block of predictions is the array's entry at image 4 t + r. -/
theorem xblk_apply (c : Dev nD) (t : Fin cfg0.N) (r : Fin 4) (n : Fin 2704) (k : Fin 5) :
    xblk m c t (ix3 r n k) = xarr m c (ix3 (⟨4 * t.val + r.val, by have := t_lt t; omega⟩ : Fin 2048) n k) := by
  obtain ⟨e0, e1, e2, -⟩ := idx_facts t
  show V m c main_arg0 (((cfg0.win 0).blk t).view.emb (ix3 r n k)) = V m c main_arg0 _
  refine congrArg (V m c main_arg0) (funext fun a => Fin.ext ?_)
  match a with
  | ⟨0, _⟩ => show win0_0.index t (0 : Fin 3) * 4 + 1 * r.val = 4 * t.val + r.val; omega
  | ⟨1, _⟩ => show win0_0.index t (1 : Fin 3) * 2704 + 1 * n.val = n.val; omega
  | ⟨2, _⟩ => show win0_0.index t (2 : Fin 3) * 5 + 1 * k.val = k.val; omega

theorem yblk_apply (c : Dev nD) (t : Fin cfg0.N) (r : Fin 4) (n : Fin 2704) (k : Fin 5) :
    yblk m c t (ix3 r n k) = yarr m c (ix3 (⟨4 * t.val + r.val, by have := t_lt t; omega⟩ : Fin 2048) n k) := by
  obtain ⟨-, -, -, e0, e1, e2, -⟩ := idx_facts t
  show V m c main_arg1 (((cfg0.win 1).blk t).view.emb (ix3 r n k)) = V m c main_arg1 _
  refine congrArg (V m c main_arg1) (funext fun a => Fin.ext ?_)
  match a with
  | ⟨0, _⟩ => show win0_1.index t (0 : Fin 3) * 4 + 1 * r.val = 4 * t.val + r.val; omega
  | ⟨1, _⟩ => show win0_1.index t (1 : Fin 3) * 2704 + 1 * n.val = n.val; omega
  | ⟨2, _⟩ => show win0_1.index t (2 : Fin 3) * 5 + 1 * k.val = k.val; omega

/-- Addend q added along the anchors of image b of a pair of arrays (nothing past the last image). -/
def rowSum (q : Fin 4) (X Y : S2048x2704x5.Idx → EReal) (b : ℕ) : EReal :=
  if h : b < 2048 then ∑ n : Fin 2704, addend q (cell X (⟨b, h⟩ : Fin 2048) n) (cell Y (⟨b, h⟩ : Fin 2048) n) else 0

/-- Addend q added over the four images of point t's block. -/
def pointSum (q : Fin 4) (X Y : S2048x2704x5.Idx → EReal) (t : ℕ) : EReal :=
  ∑ r ∈ range 4, rowSum q X Y (4 * t + r)

/-- The sum of addend q over the cells of point t's blocks is the sum over images 4 t … 4 t + 3 of the arrays. -/
theorem block_sum_eq (c : Dev nD) (t : Fin cfg0.N) (q : Fin 4) :
    ∑ r : Fin 4, ∑ n : Fin 2704, addend q (cell (xblk m c t) r n) (cell (yblk m c t) r n)
      = pointSum q (xarr m c) (yarr m c) t.val := by
  unfold pointSum
  rw [← Fin.sum_univ_eq_sum_range (fun r => rowSum q (xarr m c) (yarr m c) (4 * t.val + r)) 4]
  refine Finset.sum_congr rfl fun r _ => ?_
  have hb : 4 * t.val + r.val < 2048 := by have := t_lt t; omega
  unfold rowSum
  rw [dif_pos hb]
  refine Finset.sum_congr rfl fun n _ => ?_
  have hx : cell (xblk m c t) r n = cell (xarr m c) (⟨4 * t.val + r.val, hb⟩ : Fin 2048) n :=
    funext fun k => xblk_apply m c t r n k
  have hy : cell (yblk m c t) r n = cell (yarr m c) (⟨4 * t.val + r.val, hb⟩ : Fin 2048) n :=
    funext fun k => yblk_apply m c t r n k
  rw [hx, hy]

/-- At the first point of a core's run the accumulator restarts: zero plus the point's sum. -/
theorem outs_reset (c : Dev nD) (t : Fin cfg0.N) (h0 : t.val % 256 = 0) (q : Fin 4) :
    outsAt0 m c t.val t.isLt (ix3 (0 : Fin 1) (0 : Fin 1) q) = zero + pointSum q (xarr m c) (yarr m c) t.val := by
  rw [outsAt0_A m c t h0]
  refine (congrFun (out_reset (F := Ideal) c (grid0.coords t) (ms0_0 t) (hs0_0 t) (ms0_1 t) (hs0_1 t) (ms0_2 t) (hs0_2 t)
    ((hcond0_0 t).mpr h0) (iblk m c 0 t) (iblk m c 1 t)) (ix3 (0 : Fin 1) (0 : Fin 1) q)).trans ?_
  refine (step_apply (xblk m c t) (yblk m c t) (k0_pay1 (F := Ideal)) q).trans ?_
  rw [block_sum_eq]
  rfl

/-- At every other point it adds the point's sum to what the point before left. -/
theorem outs_carry (c : Dev nD) (t : Fin cfg0.N) (h0 : ¬t.val % 256 = 0) (q : Fin 4) :
    outsAt0 m c t.val t.isLt (ix3 (0 : Fin 1) (0 : Fin 1) q)
      = outsAt0 m c (t.val - 1) (Nat.lt_of_le_of_lt (Nat.sub_le _ _) t.isLt) (ix3 (0 : Fin 1) (0 : Fin 1) q)
        + pointSum q (xarr m c) (yarr m c) t.val := by
  rw [outsAt0_B m c t h0]
  refine (congrFun (out_carry (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix3 (0 : Fin 1) (0 : Fin 1) q)).trans ?_
  refine (step_apply (xblk m c t) (yblk m c t) _ q).trans ?_
  rw [block_sum_eq]

/-- THE RUNNING SUM. After point n the accumulator holds, at sum number q, zero plus the sums of the points of the
    core's run so far: points n - n % 256 … n. -/
theorem outs_apply (c : Dev nD) (q : Fin 4) : ∀ (n : ℕ) (hn : n < cfg0.N),
    outsAt0 m c n hn (ix3 (0 : Fin 1) (0 : Fin 1) q)
      = zero + ∑ s ∈ range (n % 256 + 1), pointSum q (xarr m c) (yarr m c) (n - n % 256 + s) := by
  intro n
  induction n with
  | zero =>
    intro hn
    rw [outs_reset m c ⟨0, hn⟩ (Nat.zero_mod _) q]
    simp
  | succ k ih =>
    intro hn
    by_cases h0 : (k + 1) % 256 = 0
    · rw [outs_reset m c ⟨k + 1, hn⟩ h0 q, h0]
      simp
    · have he : (k + 1) % 256 = k % 256 + 1 := by omega
      have hb : k + 1 - (k % 256 + 1) = k - k % 256 := by omega
      have hlast : k - k % 256 + (k % 256 + 1) = k + 1 := by omega
      rw [outs_carry m c ⟨k + 1, hn⟩ h0 q]
      show outsAt0 m c k _ (ix3 (0 : Fin 1) (0 : Fin 1) q) + _ = _
      rw [ih (Nat.lt_of_succ_lt hn), he, hb, Finset.sum_range_succ (n := k % 256 + 1), hlast, add_assoc]

/-- THE OUTPUT ARRAY after the region: entry (p, 0, q) is zero plus sum number q of the 256 points of core p. -/
def outArr (X Y : S2048x2704x5.Idx → EReal) : S2x1x4.Idx → EReal := fun i =>
  zero + ∑ s ∈ range 256, pointSum (⟨(i 2).val, (i 2).isLt⟩ : Fin 4) X Y (256 * (i 0).val + s)

/-- At the last point of a core's run the accumulator holds that core's row of the output array. -/
theorem outs_flush (c : Dev nD) (t : Fin cfg0.N) (h255 : t.val % 256 = 255) (j : S1x1x4.Idx) :
    outsAt0 m c t.val t.isLt j
      = outArr (xarr m c) (yarr m c)
          (ix3 (⟨t.val / 256, by have := t_lt t; omega⟩ : Fin 2) (0 : Fin 1) (⟨(j 2).val, (j 2).isLt⟩ : Fin 4)) := by
  obtain ⟨u, v, q, rfl⟩ : ∃ (u v : Fin 1) (q : Fin 4), j = ix3 u v q := ⟨j 0, j 1, j 2, eq_ix3 j⟩
  obtain rfl : u = 0 := Subsingleton.elim _ _
  obtain rfl : v = 0 := Subsingleton.elim _ _
  rw [outs_apply m c q t.val t.isLt, h255]
  unfold outArr
  have hb : t.val - 255 = 256 * (t.val / 256) := by omega
  rw [hb]

/-- WHAT A FLUSHING POINT WRITES BACK is its block of the output array. -/
theorem flushed_eq (c : Dev nD) (t : Fin cfg0.N) (hf : (cfg0.win 2).flush t = true) :
    (dats m 0 c).flushed 2 t = ((cfg0.win 2).blk t).view.read (Elt Ideal) (outArr (xarr m c) (yarr m c)) := by
  have h255 : t.val % 256 = 255 := (flush0_2 t).mp hf
  obtain ⟨-, -, -, -, -, -, e0, e1, e2⟩ := idx_facts t
  show (cfg0.win 2).cut (grid0.coords t) ((dats m 0 c).after 2 t) = _
  rw [after0_2]
  funext j
  show outsAt0 m c t.val t.isLt j = outArr (xarr m c) (yarr m c) (((cfg0.win 2).blk t).view.emb j)
  refine (outs_flush m c t h255 j).trans (congrArg (outArr (xarr m c) (yarr m c)) (funext fun a => Fin.ext ?_))
  have hj0 : (j 0).val < 1 := (j 0).isLt
  have hj1 : (j 1).val < 1 := (j 1).isLt
  match a with
  | ⟨0, _⟩ => show t.val / 256 = win0_2.index t (0 : Fin 3) * 1 + 1 * (j 0).val; omega
  | ⟨1, _⟩ => show 0 = win0_2.index t (1 : Fin 3) * 1 + 1 * (j 1).val; omega
  | ⟨2, _⟩ => show (j 2).val = win0_2.index t (2 : Fin 3) * 4 + 1 * (j 2).val; omega

/-- An index of the output array is in point t's block iff each coordinate is in the block's range on its axis. -/
theorem mem_blk (t : Fin cfg0.N) (i : S2x1x4.Idx) :
    i ∈ ((cfg0.win 2).blk t).view.set ↔ ∀ a : Fin 3, win0_2.index t a * S1x1x4.size a ≤ (i a).val
      ∧ (i a).val < win0_2.index t a * S1x1x4.size a + S1x1x4.size a := by
  show i ∈ ((View.whole main_v0).slice (win0_2.rect t)).set ↔ _
  rw [View.set_slice_whole, Rect.mem_set_unit]
  exact Iff.rfl

/-- Every entry of the output array is written back by the last point of its core's run. -/
theorem cover (i : S2x1x4.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 4 := (i 2).isLt
  have hN : 256 * (i 0).val + 255 < cfg0.N := by rw [show cfg0.N = 512 from N_0]; omega
  refine ⟨⟨256 * (i 0).val + 255, hN⟩, (flush0_2 _).mpr (by show (256 * (i 0).val + 255) % 256 = 255; omega), ?_⟩
  obtain ⟨-, -, -, -, -, -, e0, e1, e2⟩ := idx_facts ⟨256 * (i 0).val + 255, hN⟩
  have e0' : win0_2.index ⟨256 * (i 0).val + 255, hN⟩ (0 : Fin 3) = (256 * (i 0).val + 255) / 256 := e0
  rw [mem_blk]
  intro a
  match a with
  | ⟨0, _⟩ =>
    show win0_2.index ⟨256 * (i 0).val + 255, hN⟩ (0 : Fin 3) * 1 ≤ (i 0).val
      ∧ (i 0).val < win0_2.index ⟨256 * (i 0).val + 255, hN⟩ (0 : Fin 3) * 1 + 1
    omega
  | ⟨1, _⟩ =>
    show win0_2.index ⟨256 * (i 0).val + 255, hN⟩ (1 : Fin 3) * 1 ≤ (i 1).val
      ∧ (i 1).val < win0_2.index ⟨256 * (i 0).val + 255, hN⟩ (1 : Fin 3) * 1 + 1
    omega
  | ⟨2, _⟩ =>
    show win0_2.index ⟨256 * (i 0).val + 255, hN⟩ (2 : Fin 3) * 4 ≤ (i 2).val
      ∧ (i 2).val < win0_2.index ⟨256 * (i 0).val + 255, hN⟩ (2 : Fin 3) * 4 + 4
    omega

/-- THE OUTPUT ARRAY after the region is `outArr` of the two argument arrays. -/
theorem final_out (c : Dev nD) : (dats m 0 c).arrAt 2 cfg0.N = outArr (xarr m c) (yarr m c) :=
  (dats m 0 c).arrAt_eq_of_cover 2 (outArr (xarr m c) (yarr m c)) (fun t hf => flushed_eq m c t hf) cover

end Cert.KernelIdeal.Accum

end
-- ==== Proof.LossVal.lean ====
/-
  The number both programs end with: the loss expression of the four totals over every cell of the two arrays.
-/
import proofs.«156289_j76699525971982_1_alg».proof.Proof.Spec

noncomputable section

namespace MaskedLoss

open Idealize.ShloMosaic

/-- The loss of a pair of [2048, 2704, 5] arrays: the programs' final expression of the face count and the three error
    totals, each a rank-0 array. -/
def lossVal (X Y : (⟨3, ![2048, 2704, 5]⟩ : Shape).Idx → EReal) : FVec Ideal ⟨0, ![]⟩ .f32 :=
  lossOf Ideal (fun _ => total 0 X Y) (fun _ => total 1 X Y) (fun _ => total 2 X Y) (fun _ => total 3 X Y)

end MaskedLoss

end
-- ==== Proof.KernelTail.lean ====
/-
  After the region: the two cores' rows added, the four sums cut out, and the loss expression.

  The host operations after the region add the output array over its two rows, cut the four sums out as rank-0 arrays,
  and apply the loss expression. Each cut-out sum is zero plus the two cores' entries, each of those zero plus the sums
  of that core's 256 points; with the zeros gone and the images regrouped, it is the addend's total over every cell.
-/
import proofs.«156289_j76699525971982_1_alg».proof.Proof.KernelAccum
import proofs.«156289_j76699525971982_1_alg».proof.Proof.LossVal
import Idealize.ShloMosaic.Lib.StableHlo.Run
import Idealize.ShloMosaic.Lib.Pipeline.FrameSuffix
import Idealize.ShloMosaic.Lib.IdealHost
import Idealize.ShloMosaic.Lib.ValueLayout

set_option maxRecDepth 16384

noncomputable section

open scoped BigOperators

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.Accum MaskedLoss Finset

variable (m : (ℓ : Loc nD τ sig) → Buf (Elt Ideal) ℓ)

/-- Sum number k of the output array, added over the two cores and cut out as a rank-0 array: what the host
    operations after the region make of it before the final expression. -/
def coreSum (k : Nat) (hs : S4.Slices ![k] S1) (O : S2x1x4.Idx → EReal) : FVec Ideal S_ .f32 :=
  shapeCast S_ (extractStridedSlice S1 ![k]
    (shapeCast S4 (Host.reduceAdd O (constant (F := Ideal) S_ .f32 0x00000000#32) reducesTo_S2x1x4_S1x4_d0 h_S_) shapeCasts_S1x4_S4) hs)
    shapeCasts_S1_S_

/-- Where the operations after the region find the output array: at what the region left. -/
theorem out_at (c : Dev nD) :
    Pipeline.withArrays (cfgs 0).spec c (V0 m c) (fun w => (dats m 0 c).arrAt w (cfgs 0).N) (Proc.devRef .tc main_v0)
      = outArr (xarr m c) (yarr m c) :=
  (Pipeline.withArrays_arr spec0 launch0.win.arr_inj c _ _ 2).trans (final_out m c)

set_option maxHeartbeats 2000000 in
/-- THE RESULT of the kernel's program: the loss expression of the four sums of the output array. -/
theorem tail_eq (c : Dev nD) :
    Pipeline.afterTail₀ cfgs (dats m) 0 (V0 m) [hostOps1] c main_v22
      = lossOf Ideal (coreSum 0 slices_S4_S1_0 (outArr (xarr m c) (yarr m c))) (coreSum 1 slices_S4_S1_1 (outArr (xarr m c) (yarr m c)))
          (coreSum 2 slices_S4_S1_2 (outArr (xarr m c) (yarr m c))) (coreSum 3 slices_S4_S1_3 (outArr (xarr m c) (yarr m c))) := by
  unfold Pipeline.afterTail₀
  show StableHlo.after hostOps1 _ (Proc.devRef .tc main_v22) = _
  after_results
  rw [out_at m c]
  rfl

/-- A cut-out sum at its one index: zero plus the two cores' entries. -/
theorem coreSum_apply (k : Nat) (q : Fin 4) (hq : q.val = k) (hs : S4.Slices ![k] S1) (O : S2x1x4.Idx → EReal) (i : S_.Idx) :
    coreSum k hs O i = zero + ∑ p : Fin 2, O (ix3 p (0 : Fin 1) q) := by
  unfold coreSum
  refine (shapeCast_apply _ shapeCasts_S1_S_ i (ix1 (0 : Fin 1)) ?_).trans ?_
  · have h1 : (S1.rowMajor (ix1 (0 : Fin 1))).val < 1 := (S1.rowMajor (ix1 (0 : Fin 1))).isLt
    have h2 : (S_.rowMajor i).val < 1 := (S_.rowMajor i).isLt
    omega
  refine (extractStridedSlice_apply _ _ hs (ix1 (0 : Fin 1)) (ix1 q) fun a => ?_).trans ?_
  · match a with
    | ⟨0, _⟩ => show q.val = k + 0; omega
  refine (shapeCast_1a_a_apply _ shapeCasts_S1x4_S4 q).trans ?_
  refine (hostReduceAdd_apply _ _ reducesTo_S2x1x4_S1x4_d0 h_S_ _).trans ?_
  rw [Ideal.hostReduceAdd_single reducesTo_S2x1x4_S1x4_d0 (by decide)]
  refine congrArg (_ + ·) (Finset.sum_congr rfl fun p _ => ?_)
  exact congrArg O (funext fun a => Fin.ext (by match a with | ⟨0, _⟩ => rfl | ⟨1, _⟩ => rfl | ⟨2, _⟩ => rfl))

/-- THE KERNEL'S FOUR TOTALS: each cut-out sum of the region's output array is the addend's sum over every cell of
    the two arrays, the 2048 images regrouped by core, block and image in the block. -/
theorem kernel_total (k : Nat) (q : Fin 4) (hq : q.val = k) (hs : S4.Slices ![k] S1) (X Y : S2048x2704x5.Idx → EReal) (i : S_.Idx) :
    coreSum k hs (outArr X Y) i = total q X Y := by
  rw [coreSum_apply k q hq hs]
  show zero + ∑ p : Fin 2, (zero + ∑ s ∈ range 256, pointSum q X Y (256 * p.val + s)) = _
  rw [show zero = (0 : EReal) from Ideal.ofBits_zero_f32]
  simp only [zero_add]
  rw [Fin.sum_univ_eq_sum_range (fun p => ∑ s ∈ range 256, pointSum q X Y (256 * p + s)) 2]
  unfold pointSum
  rw [sum_cores_blocks_images (rowSum q X Y), ← Fin.sum_univ_eq_sum_range (rowSum q X Y) 2048]
  unfold total
  refine Finset.sum_congr rfl fun b _ => ?_
  unfold rowSum
  rw [dif_pos b.isLt]

/-- The kernel's program ends with the loss of the two argument arrays. -/
theorem result_eq (c : Dev nD) :
    Pipeline.afterTail₀ cfgs (dats m) 0 (V0 m) [hostOps1] c main_v22 = lossVal (xarr m c) (yarr m c) := by
  have h0 : coreSum 0 slices_S4_S1_0 (outArr (xarr m c) (yarr m c)) = fun _ => total 0 (xarr m c) (yarr m c) :=
    funext fun i => kernel_total 0 0 rfl _ _ _ i
  have h1 : coreSum 1 slices_S4_S1_1 (outArr (xarr m c) (yarr m c)) = fun _ => total 1 (xarr m c) (yarr m c) :=
    funext fun i => kernel_total 1 1 rfl _ _ _ i
  have h2 : coreSum 2 slices_S4_S1_2 (outArr (xarr m c) (yarr m c)) = fun _ => total 2 (xarr m c) (yarr m c) :=
    funext fun i => kernel_total 2 2 rfl _ _ _ i
  have h3 : coreSum 3 slices_S4_S1_3 (outArr (xarr m c) (yarr m c)) = fun _ => total 3 (xarr m c) (yarr m c) :=
    funext fun i => kernel_total 3 3 rfl _ _ _ i
  rw [tail_eq, h0, h1, h2, h3]
  rfl

/-- THE KERNEL'S RUN, READ: every weakly fair execution ends with the result at the loss of the argument arrays as the
    launch found them, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v22)
        = lossVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v22 (Pipeline.mem_restRefs_of main_v22 rfl (fun w => by fin_cases w <;> decide))).trans (result_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Tail

end
-- ==== Proof.LibMaskCount.lean ====
/-
  The number of set bits of a mask, as a host program computes it and as a kernel does.

  A host program counts the set bits of a one-bit mask by widening every bit to a 32-bit word and adding the words
  over the whole array. While the array has fewer than 2^31 entries the word sum cannot wrap and reads the same signed
  and unsigned, so, converted to a float and read at the exact instance (floats as extended reals), it is the real
  number of set bits. A kernel that converts each widened bit to a float first and adds the floats gets the same
  number: every addend is 0 or 1, and the extended-real sum of reals is the real sum.
-/
import Idealize.ShloMosaic.Lib.StableHlo.Predicate
import Idealize.ShloMosaic.PureOps.Ideal
import Idealize.ShloMosaic.Lib.ValueIdx

noncomputable section

open scoped BigOperators

namespace MaskCount

open Idealize.ShloMosaic Idealize.ShloMosaic.StableHlo.Predicate

variable {s t u : Shape} {axes : List (Fin s.rank)}

/-- A widened bit read signed is the bit: 0 or 1. -/
theorem toInt_widened_bit (b : BitVec 1) : (b.setWidth 32).toInt = if b = 1#1 then 1 else 0 := by
  rcases BitVec.eq_zero_or_eq_one b with rfl | rfl <;> decide

/-- The extended-real sum of finitely many reals is their real sum. -/
theorem coe_sum {ι : Type} (S : Finset ι) (f : ι → ℝ) : ∑ i ∈ S, ((f i : ℝ) : EReal) = ((∑ i ∈ S, f i : ℝ) : EReal) := by
  classical
  induction S using Finset.cons_induction with
  | empty => simp
  | cons a S ha ih => rw [Finset.sum_cons, Finset.sum_cons, ih, EReal.coe_add]

/-- Adding the widened bits of a mask over EVERY axis (the result has a single index) gives the number of set bits, as
    long as the array has fewer than 2^32 entries. -/
theorem toNat_reduce_count_total [Subsingleton t.Idx] (hs : s.numel < 2 ^ 32) (mask : IVec s 1) (hw : 1 < 32)
    (h : s.ReducesTo axes t) (hu : 0 < u.numel) (j : t.Idx) :
    (Host.reduce IntOp.addi (extui 32 mask hw) (constantI u 32 0#32) h hu j).toNat
      = (Finset.univ.filter (fun i : s.Idx => mask i = 1#1)).card := by
  classical
  rw [Host.reduce_eq_fold]
  have hval : ∀ i, (extui 32 mask hw i).toNat = if mask i = 1#1 then 1 else 0 := fun i => toNat_setWidth_bit (mask i)
  -- with a single result index every source index drops to it
  have hall : (Finset.univ.filter fun i : s.Idx => h.drop i = j) = Finset.univ :=
    Finset.filter_true_of_mem fun i _ => Subsingleton.elim _ _
  have hsum : ∑ i ∈ (Finset.univ.filter fun i : s.Idx => h.drop i = j), (extui 32 mask hw i).toNat
      = (Finset.univ.filter (fun i : s.Idx => mask i = 1#1)).card := by
    rw [hall, Finset.card_filter]
    exact Finset.sum_congr rfl fun i _ => hval i
  show (Finset.fold IntOp.addi 0#32 (extui 32 mask hw) (Finset.univ.filter fun i : s.Idx => h.drop i = j)).toNat = _
  rw [toNat_fold_addi _ _ (by
    rw [hsum]
    exact lt_of_le_of_lt (Finset.card_le_univ _) (by rw [Shape.card_idx]; exact hs)), hsum]

/-- The float sum of the converted widened bits is the real number of set bits. -/
theorem sum_sitofp_bits (mask : IVec s 1) (hw : 1 < 32) :
    ∑ i : s.Idx, (sitofp .f32 (extui 32 mask hw) : FVec Ideal s .f32) i
      = (((Finset.univ.filter (fun i : s.Idx => mask i = 1#1)).card : ℝ) : EReal) := by
  classical
  have hterm : ∀ i : s.Idx, (sitofp .f32 (extui 32 mask hw) : FVec Ideal s .f32) i
      = (((if mask i = 1#1 then (1 : ℝ) else 0) : ℝ) : EReal) := by
    intro i
    show (((((mask i).setWidth 32).toInt : ℤ) : ℝ) : EReal) = _
    rw [toInt_widened_bit]
    split <;> simp
  rw [Finset.sum_congr rfl fun i _ => hterm i, coe_sum, Finset.sum_boole]

/-- THE COUNT, BOTH WAYS. The host's count of a mask (widen, add the words over every axis, convert) is the kernel's
    (widen, convert, add the floats), at the exact instance, for an array of fewer than 2^31 entries. -/
theorem sitofp_reduce_eq_sum_sitofp [Subsingleton t.Idx] (hs : s.numel < 2 ^ 31) (mask : IVec s 1) (hw : 1 < 32)
    (h : s.ReducesTo axes t) (hu : 0 < u.numel) (j : t.Idx) :
    (sitofp .f32 (Host.reduce IntOp.addi (extui 32 mask hw) (constantI u 32 0#32) h hu) : FVec Ideal t .f32) j
      = ∑ i : s.Idx, (sitofp .f32 (extui 32 mask hw) : FVec Ideal s .f32) i := by
  classical
  rw [sum_sitofp_bits]
  have hcard : (Finset.univ.filter (fun i : s.Idx => mask i = 1#1)).card < 2 ^ 31 :=
    lt_of_le_of_lt (Finset.card_le_univ _) (by rw [Shape.card_idx]; exact hs)
  have hnat := toNat_reduce_count_total (t := t) (u := u) (by omega : s.numel < 2 ^ 32) mask hw h hu j
  show ((((Host.reduce IntOp.addi (extui 32 mask hw) (constantI u 32 0#32) h hu j).toInt : ℤ) : ℝ) : EReal) = _
  rw [toInt_eq_toNat_of_lt (by rw [hnat]; exact hcard), hnat]
  simp

end MaskCount

end
-- ==== Proof.RefValue.lean ====
/-
  The reference, read cell by cell.

  The reference forms the face mask and the three errors over the whole [2048, 2704] grid of cells at once and adds each
  over every cell. Its face count is an integer count converted afterwards; its box error is one sum of four squares;
  its negations are true negations where the kernel subtracts from zero. Cell by cell these are the four addends of the
  specification, so its four sums are the four totals and its result the loss expression of them.
-/
import proofs.«156289_j76699525971982_1_alg».proof.Proof.Gen.ReferenceIdeal.Read
import proofs.«156289_j76699525971982_1_alg».proof.Proof.Spec
import proofs.«156289_j76699525971982_1_alg».proof.Proof.LossVal
import proofs.«156289_j76699525971982_1_alg».proof.Proof.LibMaskCount
import Idealize.ShloMosaic.Lib.ValueIdx
import Idealize.ShloMosaic.Lib.Pipeline.Value

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read MaskedLoss

variable (X Y : S2048x2704x5.Idx → EReal)

/-- On the extended reals zero minus x is the negative of x. -/
theorem zero_sub_eq (x : EReal) : zero - x = -x := by
  show Ideal.ofBits .f32 0x00000000#32 - x = -x
  rw [Ideal.ofBits_zero_f32, zero_sub]

/-- The reference's result is the loss expression of its four sums. -/
theorem loss_eq : val_main_v53 (F := Ideal) X Y
    = lossOf Ideal (val_main_v6 (F := Ideal) Y) (val_main_v16 (F := Ideal) X Y) (val_main_v39 (F := Ideal) X Y)
        (val_main_v49 (F := Ideal) X Y) := rfl

/-- The confidence of cell (b, n): entry 0, cut out of a whole array and its unit axis dropped. -/
theorem conf_chan (Z : S2048x2704x5.Idx → EReal) (h : S2048x2704x5.Slices ![0, 0, 0] S2048x2704x1)
    (hsc : S2048x2704x1.ShapeCasts S2048x2704) (b : Fin 2048) (n : Fin 2704) :
    shapeCast S2048x2704 (extractStridedSlice S2048x2704x1 ![0, 0, 0] Z h) hsc (ix2 b n) = Z (ix3 b n (0 : Fin 5)) := by
  refine (shapeCast_apply _ hsc (ix2 b n) (ix3 b n (0 : Fin 1)) ?_).trans ?_
  · rw [Shape.rowMajor_val_three, Shape.rowMajor_val_two]
    show (b.val * 2704 + n.val) * 1 + 0 = b.val * 2704 + n.val
    omega
  · refine extractStridedSlice_apply _ Z h _ (ix3 b n (0 : Fin 5)) fun a => ?_
    match a with
    | ⟨0, _⟩ => show b.val = 0 + b.val; omega
    | ⟨1, _⟩ => show n.val = 0 + n.val; omega
    | ⟨2, _⟩ => show 0 = 0 + 0; omega

/-- The reference's mask at cell (b, n) is the cell's face bit. -/
theorem mask_apply (b : Fin 2048) (n : Fin 2704) : val_main_v3 (F := Ideal) Y (ix2 b n) = face (cell Y b n) := by
  show FloatOps.cmpf (F := Ideal) (φ := .f32) .ogt (val_main_v1 (F := Ideal) Y (ix2 b n)) _ = _
  rw [show val_main_v1 (F := Ideal) Y (ix2 b n) = Y (ix3 b n (0 : Fin 5)) from conf_chan Y _ _ b n]
  rfl

/-- THE FACE COUNT: the reference's converted integer count is the sum of the face indicators. -/
theorem cnt_eq (i : S_.Idx) : val_main_v6 (F := Ideal) Y i = total 0 X Y := by
  haveI : Subsingleton S_.Idx := ⟨fun a b => funext fun d => d.elim0⟩
  show (sitofp .f32 (Host.reduce IntOp.addi (extui 32 (val_main_v3 (F := Ideal) Y) natLt_1_32) (constantI S_ 32 0#32)
      reducesTo_S2048x2704_S_d0_1 h_S_) : FVec Ideal S_ .f32) i = _
  rw [MaskCount.sitofp_reduce_eq_sum_sitofp (by decide) (val_main_v3 (F := Ideal) Y) natLt_1_32 reducesTo_S2048x2704_S_d0_1 h_S_ i,
    sum_idx2]
  unfold total
  refine Finset.sum_congr rfl fun b _ => Finset.sum_congr rfl fun n _ => ?_
  show FloatOps.sitofp (F := Ideal) .f32 ((val_main_v3 (F := Ideal) Y (ix2 b n)).setWidth 32) = _
  rw [mask_apply]
  rfl

/-- One squared box difference of cell (b, n), as the reference cuts entries 1 … 4 out. -/
theorem sq_apply (b : Fin 2048) (n : Fin 2704) (k : Fin 4) :
    val_main_v13 (F := Ideal) X Y (idx_main_v14 (ix2 b n) k)
      = (X (ix3 b n (⟨1 + k.val, by omega⟩ : Fin 5)) - Y (ix3 b n (⟨1 + k.val, by omega⟩ : Fin 5)))
        * (X (ix3 b n (⟨1 + k.val, by omega⟩ : Fin 5)) - Y (ix3 b n (⟨1 + k.val, by omega⟩ : Fin 5))) := by
  have e10 : idx_main_v10 (idx_main_v14 (ix2 b n) k) = ix3 b n (⟨1 + k.val, by omega⟩ : Fin 5) :=
    funext fun a => Fin.ext (by match a with | ⟨0, _⟩ => rfl | ⟨1, _⟩ => rfl | ⟨2, _⟩ => rfl)
  have e11 : idx_main_v11 (idx_main_v14 (ix2 b n) k) = ix3 b n (⟨1 + k.val, by omega⟩ : Fin 5) :=
    funext fun a => Fin.ext (by match a with | ⟨0, _⟩ => rfl | ⟨1, _⟩ => rfl | ⟨2, _⟩ => rfl)
  rw [val_main_v13_apply, val_main_v12_apply, val_main_v10_apply, val_main_v11_apply, e10, e11]
  rfl

/-- The reference's masked box error at cell (b, n): the four squares added in one sum onto zero, which is the same
    number as adding them from the left. -/
theorem box_apply (b : Fin 2048) (n : Fin 2704) :
    val_main_v15 (F := Ideal) X Y (ix2 b n) = addend 1 (cell X b n) (cell Y b n) := by
  rw [val_main_v15_apply, mask_apply, val_main_v14_apply, Fin.sum_univ_four, sq_apply, sq_apply, sq_apply, sq_apply]
  show _ = Scalar.select (face (cell Y b n)) (boxErr (cell X b n) (cell Y b n)) zero
  unfold boxErr
  refine congrArg (fun v => Scalar.select (face (cell Y b n)) v _) ?_
  simp only [add_assoc]
  rfl

/-- The reference's masked confidence cross-entropy at cell (b, n). -/
theorem conf_apply (b : Fin 2048) (n : Fin 2704) :
    val_main_v38 (F := Ideal) X Y (ix2 b n) = addend 2 (cell X b n) (cell Y b n) := by
  have hp : val_main_v21 (F := Ideal) X (ix2 b n) = X (ix3 b n (0 : Fin 5)) := conf_chan X _ _ b n
  have ht : val_main_v23 (F := Ideal) Y (ix2 b n) = Y (ix3 b n (0 : Fin 5)) := conf_chan Y _ _ b n
  show Scalar.select (val_main_v3 (F := Ideal) Y (ix2 b n))
      (-(val_main_v23 (F := Ideal) Y (ix2 b n) * max (Ideal.log (val_main_v21 (F := Ideal) X (ix2 b n))) floor
        + (one - val_main_v23 (F := Ideal) Y (ix2 b n)) * max (Ideal.log (one - val_main_v21 (F := Ideal) X (ix2 b n))) floor))
      zero = _
  rw [hp, ht, mask_apply, ← zero_sub_eq]
  rfl

/-- The reference's background cross-entropy off faces at cell (b, n). -/
theorem bg_apply (b : Fin 2048) (n : Fin 2704) :
    val_main_v48 (F := Ideal) X Y (ix2 b n) = addend 3 (cell X b n) (cell Y b n) := by
  have hp : val_main_v21 (F := Ideal) X (ix2 b n) = X (ix3 b n (0 : Fin 5)) := conf_chan X _ _ b n
  show Scalar.select (val_main_v3 (F := Ideal) Y (ix2 b n)) zero
      (-(max (Ideal.log (one - val_main_v21 (F := Ideal) X (ix2 b n))) floor)) = _
  rw [hp, mask_apply, ← zero_sub_eq]
  rfl

/-- THE THREE FLOAT TOTALS: each of the reference's sums over every cell, started from zero, is the addend's total. -/
theorem box_eq (i : S_.Idx) : val_main_v16 (F := Ideal) X Y i = total 1 X Y := by
  rw [val_main_v16_apply, sum_idx2]
  unfold total
  refine (congrArg (_ + ·) (Finset.sum_congr rfl fun b _ => Finset.sum_congr rfl fun n _ => box_apply X Y b n)).trans ?_
  show zero + _ = _
  rw [show zero = (0 : EReal) from Ideal.ofBits_zero_f32, zero_add]
theorem conf_eq (i : S_.Idx) : val_main_v39 (F := Ideal) X Y i = total 2 X Y := by
  rw [val_main_v39_apply, sum_idx2]
  unfold total
  refine (congrArg (_ + ·) (Finset.sum_congr rfl fun b _ => Finset.sum_congr rfl fun n _ => conf_apply X Y b n)).trans ?_
  show zero + _ = _
  rw [show zero = (0 : EReal) from Ideal.ofBits_zero_f32, zero_add]
theorem bg_eq (i : S_.Idx) : val_main_v49 (F := Ideal) X Y i = total 3 X Y := by
  rw [val_main_v49_apply, sum_idx2]
  unfold total
  refine (congrArg (_ + ·) (Finset.sum_congr rfl fun b _ => Finset.sum_congr rfl fun n _ => bg_apply X Y b n)).trans ?_
  show zero + _ = _
  rw [show zero = (0 : EReal) from Ideal.ofBits_zero_f32, zero_add]

/-- THE REFERENCE'S RESULT is the loss of the two arrays. -/
theorem result_eq : val_main_v53 (F := Ideal) X Y = lossVal X Y := by
  have h0 : val_main_v6 (F := Ideal) Y = fun _ => total 0 X Y := funext fun i => cnt_eq X Y i
  have h1 : val_main_v16 (F := Ideal) X Y = fun _ => total 1 X Y := funext fun i => box_eq X Y i
  have h2 : val_main_v39 (F := Ideal) X Y = fun _ => total 2 X Y := funext fun i => conf_eq X Y i
  have h3 : val_main_v49 (F := Ideal) X Y = fun _ => total 3 X Y := funext fun i => bg_eq X Y i
  rw [loss_eq, h0, h1, h2, h3]
  rfl

end Cert.ReferenceIdeal.RefValue

end
-- ==== Proof.lean ====
/-
  The masked detection loss: a two-core accumulating kernel against its whole-array reference, over the extended reals.

  Both programs compute one number from two [2048, 2704, 5] arrays: four sums over all cells (the face count, and the box,
  confidence and background errors where they count), then one fixed expression of the four. The kernel forms the sums
  block by block, four images at a time, each of two cores accumulating 256 blocks and the host adding the two cores;
  the reference forms them over the whole grid at once, counting faces in integers. Cell by cell the addends agree, and
  extended-real addition is commutative and associative, so regrouping the images changes nothing: no finiteness of the
  inputs is used. The expression after the sums is the same operations in both programs and is never opened.
  The three frames are the generated ones (the reference's is its generated run with the result dropped); the kernel's
  idealization rewrote nothing.
-/
import proofs.«156289_j76699525971982_1_alg».proof.Defs
import proofs.«156289_j76699525971982_1_alg».proof.Proof.Gen.Kernel
import proofs.«156289_j76699525971982_1_alg».proof.Proof.Gen.Kernel.Frame
import proofs.«156289_j76699525971982_1_alg».proof.Proof.Gen.KernelIdeal
import proofs.«156289_j76699525971982_1_alg».proof.Proof.Gen.KernelIdeal.Frame
import proofs.«156289_j76699525971982_1_alg».proof.Proof.Gen.ReferenceIdeal
import proofs.«156289_j76699525971982_1_alg».proof.Proof.Gen.ReferenceIdeal.Run
import proofs.«156289_j76699525971982_1_alg».proof.Proof.Gen.Pre_finite_inputs
import proofs.«156289_j76699525971982_1_alg».proof.Proof.KernelTail
import proofs.«156289_j76699525971982_1_alg».proof.Proof.RefValue
import Idealize.ShloMosaic.Adequacy
import Idealize.ShloMosaic.Init

noncomputable section

namespace Cert.Proof

open Idealize.ShloMosaic Idealize.ShloMosaic.TcCoe Idealize.SL.Sem MaskedLoss

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to preserve. -/
theorem preserves : Cert.preserves_Kernel_KernelIdeal := trivial

/-- Both programs, from memories that agree on the two arrays, end with the loss of those arrays. -/
theorem algebraic : Cert.algebraic_KernelIdeal_ReferenceIdeal := by
  intro m ρ m' ρ' _ hagree
  refine ⟨fun c => lossVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
